-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S512x256 : Shape := ⟨2, ![512, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S262144x256 .f32) (main_arg1 : FVec F S512x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S262144x256 : Shape := ⟨2, ![262144, 256]⟩
abbrev S512x256 : Shape := ⟨2, ![512, 256]⟩
abbrev S_ : Shape := ⟨0, ![]⟩
abbrev S512 : Shape := ⟨1, ![512]⟩
abbrev S512x1 : Shape := ⟨2, ![512, 1]⟩
abbrev S256x512 : Shape := ⟨2, ![256, 512]⟩
abbrev S262144x512 : Shape := ⟨2, ![262144, 512]⟩
abbrev S2048x256 : Shape := ⟨2, ![2048, 256]⟩
abbrev S2048x512 : Shape := ⟨2, ![2048, 512]⟩
abbrev S2048 : Shape := ⟨1, ![2048]⟩
abbrev S2048x1 : Shape := ⟨2, ![2048, 1]⟩

abbrev nBuf : Space → Nat
  | .hbm => 17
  | .vmem => 8
  | .smem => 0
  | _ => 0

abbrev bufTy : (tb : Table) → Fin (tcTables nBuf tb) → BufTy
  | .hbm, ⟨0, _⟩ => ⟨S262144x256, .f32⟩
  | .hbm, ⟨1, _⟩ => ⟨S512x256, .f32⟩
  | .hbm, ⟨2, _⟩ => ⟨S512x256, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S512x256, .f32⟩
  | .hbm, ⟨11, _⟩ => ⟨S512x256, .f32⟩
  | .hbm, ⟨12, _⟩ => ⟨S512x256, .bf16⟩
  | .hbm, ⟨13, _⟩ => ⟨S256x512, .bf16⟩
  | .hbm, ⟨14, _⟩ => ⟨S512x256, .bf16⟩
  | .hbm, ⟨15, _⟩ => ⟨S262144x256, .f32⟩
  | .hbm, ⟨16, _⟩ => ⟨S262144x512, .f32⟩
  | .local _ .vmem, ⟨0, _⟩ => ⟨S2048x256, .f32⟩
  | .local _ .vmem, ⟨1, _⟩ => ⟨S2048x256, .f32⟩
  | .local _ .vmem, ⟨2, _⟩ => ⟨S256x512, .bf16⟩
  | .local _ .vmem, ⟨3, _⟩ => ⟨S512x256, .bf16⟩
  | .local _ .vmem, ⟨4, _⟩ => ⟨S2048x256, .f32⟩
  | .local _ .vmem, ⟨5, _⟩ => ⟨S2048x256, .f32⟩
  | .local _ .vmem, ⟨6, _⟩ => ⟨S2048x512, .f32⟩
  | .local _ .vmem, ⟨7, _⟩ => ⟨S2048x512, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  bitsLt_bf16_f32 : FTy.bits .bf16 < FTy.bits .f32
  transposes_S512x256_S256x512_1_0 : S512x256.Transposes [1, 0] S256x512
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S2048x512_S2048 : S2048x512.Reduces [1] S2048
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S262144x256.size a
  hwx0_3 : ∀ i : grid0.Coords, EltTy.bits .f32 = 32 ∨ (Rect.block (s := S262144x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S262144x512.size a
  hwx0_4 : ∀ i : grid0.Coords, EltTy.bits .f32 = 32 ∨ (Rect.block (s := S262144x512) S2048x512.size (cc0_transform_4 i) (hinb0_4 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S2048x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S512x256 : Shape := ⟨2, ![512, 256]⟩
abbrev S_ : Shape := ⟨0, ![]⟩
abbrev S262144 : Shape := ⟨1, ![262144]⟩
abbrev S262144x1 : Shape := ⟨2, ![262144, 1]⟩
abbrev S512 : Shape := ⟨1, ![512]⟩
abbrev S512x1 : Shape := ⟨2, ![512, 1]⟩
abbrev S262144x512 : Shape := ⟨2, ![262144, 512]⟩

abbrev nBuf : Space → Nat
  | .hbm => 38
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S512x256, .f32⟩
  | .hbm, ⟨2, _⟩ => ⟨S262144x256, .f32⟩
  | .hbm, ⟨3, _⟩ => ⟨S_, .f32⟩
  | .hbm, ⟨4, _⟩ => ⟨S262144, .f32⟩
  | .hbm, ⟨5, _⟩ => ⟨S262144x1, .f32⟩
  | .hbm, ⟨6, _⟩ => ⟨S262144x1, .f32⟩
  | .hbm, ⟨7, _⟩ => ⟨S_, .f32⟩
  | .hbm, ⟨8, _⟩ => ⟨S262144x1, .f32⟩
  | .hbm, ⟨9, _⟩ => ⟨S262144x1, .f32⟩
  | .hbm, ⟨10, _⟩ => ⟨S262144x256, .f32⟩
  | .hbm, ⟨11, _⟩ => ⟨S262144x256, .f32⟩
  | .hbm, ⟨12, _⟩ => ⟨S512x256, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S512x256, .f32⟩
  | .hbm, ⟨21, _⟩ => ⟨S512x256, .f32⟩
  | .hbm, ⟨22, _⟩ => ⟨S262144x512, .f32⟩
  | .hbm, ⟨23, _⟩ => ⟨S_, .f32⟩
  | .hbm, ⟨24, _⟩ => ⟨S262144, .f32⟩
  | .hbm, ⟨25, _⟩ => ⟨S_, .f32⟩
  | .hbm, ⟨26, _⟩ => ⟨S262144, .f32⟩
  | .hbm, ⟨27, _⟩ => ⟨S262144, .f32⟩
  | .hbm, ⟨28, _⟩ => ⟨S262144x1, .f32⟩
  | .hbm, ⟨29, _⟩ => ⟨S262144x512, .f32⟩
  | .hbm, ⟨30, _⟩ => ⟨S262144x512, .f32⟩
  | .hbm, ⟨31, _⟩ => ⟨S262144x512, .f32⟩
  | .hbm, ⟨32, _⟩ => ⟨S_, .f32⟩
  | .hbm, ⟨33, _⟩ => ⟨S262144, .f32⟩
  | .hbm, ⟨34, _⟩ => ⟨S262144x1, .f32⟩
  | .hbm, ⟨35, _⟩ => ⟨S262144x512, .f32⟩
  | .hbm, ⟨36, _⟩ => ⟨S262144x512, .f32⟩
  | .hbm, ⟨37, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x256_0_1 : S262144x1.BroadcastsInDim S262144x256 (![0, 1] : Fin 2 → Fin S262144x256.rank)
  reducesTo_S512x256_S512_d1 : S512x256.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  reducesTo_S262144x512_S262144_d1 : S262144x512.ReducesTo [1] S262144
  bcast_S_S262144 : S_.BroadcastsInDim S262144 (![] : Fin 0 → Fin S262144.rank)
  bcast_S262144x1_S262144x512_0_1 : S262144x1.BroadcastsInDim S262144x512 (![0, 1] : Fin 2 → Fin S262144x512.rank)
  dot_S262144x256_S512x256_S262144x512_1_1_0_0_n_n_wf : DotDims.WF S262144x256 S512x256 S262144x512 [1] [1] [0] [0] [] []
  dot_S262144x512_S512x256_S262144x256_1_0_0_1_n_n_wf : DotDims.WF S262144x512 S512x256 S262144x256 [1] [0] [0] [1] [] []

variable [Facts₀]

def dot_S262144x256_S512x256_S262144x512_1_1_0_0_n_n : DotDims S262144x256 S512x256 S262144x512 where
  lhsContracting := [1]
  rhsContracting := [1]
  lhsNonContracting := [0]
  rhsNonContracting := [0]
  lhsBatch := []
  rhsBatch := []
  wf := dot_S262144x256_S512x256_S262144x512_1_1_0_0_n_n_wf
def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf

class Facts : Prop extends Facts₀ where

variable [Facts]
-- ==== Proof.Spec.lean ====
/-
  The mathematics of the statement, row by row, on the extended reals.

  A query row `q` (256 entries) is scaled to unit length with its Euclidean norm clamped below by a small positive
  constant; so is every row of the codebook `e` (512 rows of 256 entries).  The cosine similarities of the scaled
  query against the scaled codebook rows go through a softmax over the 512 rows (shifted by the row maximum), and the
  softmax weights mix the ORIGINAL codebook rows.

  Two spellings of each step are named here.  One divides (`x / y`); the other multiplies by the reciprocal
  (`x * (1 / y)`), and for the mixture multiplies the whole weighted sum by the reciprocal of the softmax mass
  instead of each weight.  On finite inputs the two spellings agree: every divisor is a positive real, and the
  terms of the weighted sum are reals, so the reciprocal may be moved across the sum.
-/
import Idealize.ShloMosaic.PureOps.Ideal
import Idealize.ShloMosaic.PureOps.Ideal.Laws

noncomputable section

open scoped BigOperators

namespace Cert.CosineSoftmax

open Idealize.ShloMosaic

/-- The positive constant the norm is clamped by (the single-precision value nearest 1e-12). -/
def eps : EReal := Ideal.ofBits .f32 0x2B8CBCCC#32
/-- The numerator of the reciprocals: the single-precision one. -/
def one : EReal := Ideal.ofBits .f32 0x3F800000#32
/-- The value the row maximum is folded from: the single-precision minus infinity. -/
def negInf : EReal := Ideal.ofBits .f32 0xFF800000#32

variable {D N : Nat}

/-- The Euclidean norm of a row, clamped below by `eps`. -/
def nrm (x : Fin D → EReal) : EReal := max (Ideal.sqrt (∑ d, x d * x d)) eps

/-- A row scaled to unit length by DIVIDING each entry by the clamped norm. -/
def unitDiv (x : Fin D → EReal) (d : Fin D) : EReal := Ideal.div (x d) (nrm x)

/-- A row scaled to unit length by MULTIPLYING each entry with the reciprocal of the clamped norm. -/
def unitMul (x : Fin D → EReal) (d : Fin D) : EReal := x d * Ideal.div one (nrm x)

/-- The inner products of a row `u` with the rows of `bank`. -/
def dots (u : Fin D → EReal) (bank : Fin N → Fin D → EReal) (n : Fin N) : EReal := ∑ d, u d * bank n d

/-- The maximum of a row of similarities, folded from minus infinity. -/
def rowMax (s : Fin N → EReal) : EReal := (Finset.univ : Finset (Fin N)).fold max negInf s

/-- The exponential of a similarity shifted by the row maximum. -/
def expShift (s : Fin N → EReal) (n : Fin N) : EReal := Ideal.exp (s n - rowMax s)

/-- The softmax mass: the sum of the shifted exponentials over the row. -/
def mass (s : Fin N → EReal) : EReal := ∑ n, expShift s n

/-- The softmax weight, the shifted exponential DIVIDED by the mass. -/
def softDiv (s : Fin N → EReal) (n : Fin N) : EReal := Ideal.div (expShift s n) (mass s)

/-- The softmax weight, the shifted exponential TIMES the reciprocal of the mass. -/
def softMul (s : Fin N → EReal) (n : Fin N) : EReal := expShift s n * Ideal.div one (mass s)

/-- The mixture of the rows of `w` by the divided softmax weights. -/
def mixDiv (s : Fin N → EReal) (w : Fin N → Fin D → EReal) (d : Fin D) : EReal := ∑ n, softDiv s n * w n d

/-- The mixture of the rows of `w` by the shifted exponentials, the whole sum then scaled by the reciprocal of the mass. -/
def mixMul (s : Fin N → EReal) (w : Fin N → Fin D → EReal) (d : Fin D) : EReal :=
  (∑ n, expShift s n * w n d) * Ideal.div one (mass s)

/-- The cosine similarities with both sides scaled by division. -/
def simDiv (q : Fin D → EReal) (e : Fin N → Fin D → EReal) : Fin N → EReal := dots (unitDiv q) (fun n => unitDiv (e n))

/-- The cosine similarities with the query scaled by the reciprocal and the codebook rows by division. -/
def simMul (q : Fin D → EReal) (e : Fin N → Fin D → EReal) : Fin N → EReal := dots (unitMul q) (fun n => unitDiv (e n))

end Cert.CosineSoftmax

end
-- ==== Proof.Algebra.lean ====
/-
  The two spellings of the statement agree on finite inputs (see the specification's header).

  The road: a row of reals is written as the coercion of a real-valued function, and every quantity of the
  specification is then computed as the coercion of a real: the clamped norm is a positive real, so the scaled
  rows are real and the reciprocal spelling of the scaling is the division; the similarities are real; the row
  maximum over a nonempty index set is one of them, hence real; the shifted exponentials are positive reals and so is
  their sum.  With every term real, the reciprocal of the mass moves across the weighted sum by distributivity in ℝ.
-/
import proofs.«409411_j8753143349689_3_alg».proof.Proof.Spec

noncomputable section

open scoped BigOperators

namespace Cert.CosineSoftmax

open Idealize.ShloMosaic

variable {D N : Nat}

/- What the specification's quantities are on rows of reals. -/
namespace OnReals

/-! ### The three constants -/

/-- The numerator of the reciprocals is the extended real `1`. -/
theorem one_eq : one = 1 := by
  simp [one, Ideal.ofBits, Ideal.ieee, -EReal.coe_mul]; norm_num

/-- The value the maximum is folded from is `⊥`. -/
theorem negInf_eq : negInf = ⊥ := by
  simp [negInf, Ideal.ofBits, Ideal.ieee]

/-- The clamp is a positive real: `(2^23 + 834764) · 2^(87 - 127 - 23)`. -/
theorem eps_pos : ∃ r : ℝ, 0 < r ∧ eps = (r : EReal) := by
  refine ⟨(9223372 : ℝ) * (2 : ℝ) ^ (-63 : ℤ), by positivity, ?_⟩
  simp [eps, Ideal.ofBits, Ideal.ieee, -EReal.coe_mul]

/-! ### Finite sums of reals inside the extended reals -/

/-- A finite sum of coerced reals is the coercion of the real sum. -/
theorem coe_sum {ι : Type*} (t : Finset ι) (f : ι → ℝ) :
    ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- A finite sum of products of coerced reals is the coercion of the real sum of products. -/
theorem coe_sum_mul {ι : Type*} (t : Finset ι) (f g : ι → ℝ) :
    ∑ i ∈ t, (f i : EReal) * (g i : EReal) = ((∑ i ∈ t, f i * g i : ℝ) : EReal) := by
  rw [← coe_sum]
  exact Finset.sum_congr rfl fun i _ => (EReal.coe_mul _ _).symm

/-! ### Reciprocal against division -/

/-- Multiplying by the reciprocal of a nonzero real is dividing by it, for every extended real. -/
theorem mul_div_one {y : ℝ} (h : y ≠ 0) (x : EReal) :
    x * Ideal.div one (y : EReal) = Ideal.div x (y : EReal) := by
  rw [Ideal.div_coe h, Ideal.div_coe h, one_eq, one_mul]

/-- Dividing a real by a nonzero real stays real. -/
theorem div_coe_coe {y : ℝ} (h : y ≠ 0) (x : ℝ) :
    Ideal.div (x : EReal) (y : EReal) = ((x * (1 / y) : ℝ) : EReal) := by
  rw [Ideal.div_coe h, EReal.coe_mul]

/-! ### The clamped norm and the scaled rows -/

/-- The clamped norm of a real row is a positive real. -/
theorem nrm_coe (x : Fin D → ℝ) : ∃ r : ℝ, 0 < r ∧ nrm (fun d => (x d : EReal)) = (r : EReal) := by
  obtain ⟨c, hc, hce⟩ := eps_pos
  refine ⟨max (Real.sqrt (∑ d, x d * x d)) c, lt_max_of_lt_right hc, ?_⟩
  have hnn : ¬ (∑ d, x d * x d) < 0 := not_lt.mpr (Finset.sum_nonneg fun d _ => mul_self_nonneg (x d))
  rw [nrm, coe_sum_mul, Ideal.sqrt_coe, if_neg hnn, hce]
  exact (EReal.coe_strictMono.monotone.map_max).symm

/-- The reciprocal spelling of the scaling is the division, on a real row. -/
theorem unitMul_coe (x : Fin D → ℝ) :
    unitMul (fun d => (x d : EReal)) = unitDiv (fun d => (x d : EReal)) := by
  obtain ⟨r, hr, hre⟩ := nrm_coe x
  funext d
  rw [unitMul, unitDiv, hre]
  exact mul_div_one hr.ne' _

/-- A real row scaled by division is a real row. -/
theorem unitDiv_coe (x : Fin D → ℝ) :
    ∃ u : Fin D → ℝ, unitDiv (fun d => (x d : EReal)) = fun d => (u d : EReal) := by
  obtain ⟨r, hr, hre⟩ := nrm_coe x
  refine ⟨fun d => x d * (1 / r), ?_⟩
  funext d
  rw [unitDiv, hre]
  exact div_coe_coe hr.ne' _

/-! ### The similarities -/

/-- Inner products of real rows are real. -/
theorem dots_coe (u : Fin D → ℝ) (b : Fin N → Fin D → ℝ) :
    dots (fun d => (u d : EReal)) (fun n d => (b n d : EReal)) = fun n => ((∑ d, u d * b n d : ℝ) : EReal) := by
  funext n
  rw [dots, coe_sum_mul]

/-- On real rows the two spellings of the similarities agree, and the similarities are real. -/
theorem sim_coe (q : Fin D → ℝ) (e : Fin N → Fin D → ℝ) :
    simMul (fun d => (q d : EReal)) (fun n d => (e n d : EReal))
        = simDiv (fun d => (q d : EReal)) (fun n d => (e n d : EReal))
      ∧ ∃ s : Fin N → ℝ, simDiv (fun d => (q d : EReal)) (fun n d => (e n d : EReal)) = fun n => (s n : EReal) := by
  refine ⟨by rw [simMul, simDiv, unitMul_coe], ?_⟩
  obtain ⟨u, hu⟩ := unitDiv_coe q
  choose v hv using fun n => unitDiv_coe (e n)
  refine ⟨fun n => ∑ d, u d * v n d, ?_⟩
  have hbank : (fun n => unitDiv (fun d => (e n d : EReal))) = fun n d => (v n d : EReal) := by
    funext n; exact hv n
  rw [simDiv, hu, hbank, dots_coe]

/-! ### The softmax of a real row of similarities -/

/-- Over a nonempty index set the row maximum of a real row is real (it is one of the entries). -/
theorem rowMax_coe (hN : 0 < N) (s : Fin N → ℝ) :
    ∃ m : ℝ, rowMax (fun n => (s n : EReal)) = (m : EReal) := by
  haveI : Nonempty (Fin N) := ⟨⟨0, hN⟩⟩
  obtain ⟨i, -, hi⟩ := Finset.exists_mem_eq_sup (Finset.univ : Finset (Fin N)) Finset.univ_nonempty
    (fun n => (s n : EReal))
  refine ⟨s i, ?_⟩
  rw [rowMax, negInf_eq]
  exact hi

/-- The shifted exponentials of a real row are positive reals. -/
theorem expShift_coe (hN : 0 < N) (s : Fin N → ℝ) :
    ∃ a : Fin N → ℝ, (∀ n, 0 < a n) ∧ expShift (fun n => (s n : EReal)) = fun n => (a n : EReal) := by
  obtain ⟨m, hm⟩ := rowMax_coe hN s
  refine ⟨fun n => Real.exp (s n - m), fun n => Real.exp_pos _, ?_⟩
  funext n
  rw [expShift, hm, ← EReal.coe_sub, Ideal.exp_coe]

/-- The softmax mass of a real row is a positive real, the sum of the shifted exponentials. -/
theorem mass_coe (hN : 0 < N) (s : Fin N → ℝ) (a : Fin N → ℝ) (ha : ∀ n, 0 < a n)
    (hexp : expShift (fun n => (s n : EReal)) = fun n => (a n : EReal)) :
    0 < ∑ n, a n ∧ mass (fun n => (s n : EReal)) = ((∑ n, a n : ℝ) : EReal) := by
  haveI : Nonempty (Fin N) := ⟨⟨0, hN⟩⟩
  refine ⟨Finset.sum_pos (fun n _ => ha n) Finset.univ_nonempty, ?_⟩
  rw [mass, hexp, coe_sum]

end OnReals

open OnReals

/-! ### The two theorems -/

/-- On real rows, the softmax weight built with reciprocals is the one built with divisions. -/
theorem softMul_simMul (hN : 0 < N) (q : Fin D → EReal) (e : Fin N → Fin D → EReal)
    (hq : ∀ d, ∃ r : ℝ, q d = (r : EReal)) (he : ∀ n d, ∃ r : ℝ, e n d = (r : EReal)) (n : Fin N) :
    softMul (simMul q e) n = softDiv (simDiv q e) n := by
  choose qr hqr using hq
  choose er her using he
  obtain rfl : q = fun d => (qr d : EReal) := funext hqr
  obtain rfl : e = fun n d => (er n d : EReal) := funext fun n => funext (her n)
  obtain ⟨hsim, s, hs⟩ := sim_coe qr er
  obtain ⟨a, ha, hexp⟩ := expShift_coe hN s
  obtain ⟨hL, hmass⟩ := mass_coe hN s a ha hexp
  rw [hsim, hs, softMul, softDiv, hmass]
  exact mul_div_one hL.ne' _

/-- On real rows, the mixture scaled once by the reciprocal of the mass is the mixture by the divided weights. -/
theorem mixMul_simMul (hN : 0 < N) (q : Fin D → EReal) (e : Fin N → Fin D → EReal)
    (hq : ∀ d, ∃ r : ℝ, q d = (r : EReal)) (he : ∀ n d, ∃ r : ℝ, e n d = (r : EReal)) (d : Fin D) :
    mixMul (simMul q e) e d = mixDiv (simDiv q e) e d := by
  choose qr hqr using hq
  choose er her using he
  obtain rfl : q = fun d => (qr d : EReal) := funext hqr
  obtain rfl : e = fun n d => (er n d : EReal) := funext fun n => funext (her n)
  obtain ⟨hsim, s, hs⟩ := sim_coe qr er
  obtain ⟨a, ha, hexp⟩ := expShift_coe hN s
  obtain ⟨hL, hmass⟩ := mass_coe hN s a ha hexp
  have hL0 : (∑ n, a n) ≠ 0 := hL.ne'
  -- the left side: one real sum, scaled once
  have hleft : mixMul (fun n => (s n : EReal)) (fun n d => (er n d : EReal)) d
      = (((∑ n, a n * er n d) * (1 / ∑ n, a n) : ℝ) : EReal) := by
    rw [mixMul, hexp, hmass, coe_sum_mul, Ideal.div_coe hL0, one_eq, one_mul, EReal.coe_mul]
  -- the right side: every weight a real, scaled one by one
  have hright : mixDiv (fun n => (s n : EReal)) (fun n d => (er n d : EReal)) d
      = ((∑ n, a n * (1 / ∑ n, a n) * er n d : ℝ) : EReal) := by
    rw [mixDiv, ← coe_sum_mul]
    refine Finset.sum_congr rfl fun n _ => ?_
    rw [softDiv, hexp, hmass, div_coe_coe hL0]
  rw [hsim, hs, hleft, hright, Finset.sum_mul]
  congr 1
  exact Finset.sum_congr rfl fun n _ => by ring

end Cert.CosineSoftmax

end
-- ==== Proof.Finite.lean ====
/-
  The precondition says every entry of both inputs is a real number.

  It is printed as two tests "|x| < +∞ at every entry", one per input, joined by a conjunction.  A conjunction of
  one-bit words is 1 only if both are; a reduction by "and" over all entries is 1 only if every entry's bit is 1;
  and an extended real whose absolute value max x (-x) lies strictly below +∞ is neither -∞ nor +∞, hence a real.
-/
import proofs.«409411_j8753143349689_3_alg».proof.Defs
import proofs.«409411_j8753143349689_3_alg».proof.Proof.Gen.Pre_finite_inputs
import Idealize.ShloMosaic.Lib.ReduceAll
import Idealize.ShloMosaic.Lib.ValueIdx

noncomputable section

namespace Cert.FiniteInputs

open Idealize.ShloMosaic Idealize.SL.Sem

/-- An extended real whose absolute value `max x (-x)` compares strictly below the single-precision plus infinity
    (which is `⊤`) is a real: at `⊥` and at `⊤` the absolute value is `⊤`, and `⊤ < ⊤` fails. -/
theorem real_of_abs_lt (x : EReal)
    (h : Ideal.cmp .olt (max x (-x)) (Ideal.ofBits .f32 0x7F800000#32) = 1#1) : ∃ r : ℝ, x = (r : EReal) := by
  induction x using EReal.rec with
  | bot => simp [Ideal.cmp, Ideal.ofBits, Ideal.ieee] at h
  | coe r => exact ⟨r, rfl⟩
  | top => simp [Ideal.cmp, Ideal.ofBits, Ideal.ieee] at h

/-- Under the precondition every entry of the query array and of the codebook array is a real. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S262144x256.Idx, ∃ r : ℝ,
        (m ((c.tc : Thread Cert.KernelIdeal.nD Cert.KernelIdeal.τ).loc Cert.KernelIdeal.main_arg0) : Cert.KernelIdeal.S262144x256.Idx → EReal) i = (r : EReal))
    ∧ (∀ i : Cert.KernelIdeal.S512x256.Idx, ∃ r : ℝ,
        (m ((c.tc : Thread Cert.KernelIdeal.nD Cert.KernelIdeal.τ).loc Cert.KernelIdeal.main_arg1) : Cert.KernelIdeal.S512x256.Idx → EReal) i = (r : EReal)) := by
  -- the scalar shape has exactly one index
  haveI : Subsingleton Cert.Pre_finite_inputs.S_.Idx := ⟨fun a b => funext fun d => d.elim0⟩
  -- the predicate's one entry is 1; it is the conjunction of the two "all entries" tests
  have h0 := congrFun (h c) ValueIdx.ix0
  dsimp only [Cert.Pre_finite_inputs.fn] at h0
  obtain ⟨ha, hb⟩ := IntOp.andi_eq_one.1 h0
  -- each test being 1 gives the comparison |x| < +∞ at every entry, and that makes the entry a real
  refine ⟨fun i => ?_, fun i => ?_⟩
  · exact real_of_abs_lt _ (Host.reduce_andi_all _ _ _ _ _ ha i)
  · exact real_of_abs_lt _ (Host.reduce_andi_all _ _ _ _ _ hb i)

end Cert.FiniteInputs

end
-- ==== Proof.RefRead.lean ====
/-
  The reference's two results, read at an index, are the divided softmax weights and their mixture of the codebook rows.

  The reference is read one stage at a time.  Each row of the query array and of the codebook is divided by its
  clamped Euclidean norm; the inner products of the scaled rows are the cosine similarities; the maximum of a row of
  similarities is a fold of `max` from minus infinity over the 512 columns (taking the maximum with minus infinity
  once more changes nothing); the shifted exponentials, their sum and the quotient are the softmax; and the second
  contraction mixes the original codebook rows with the softmax weights.
-/
import proofs.«409411_j8753143349689_3_alg».proof.Proof.Gen.ReferenceIdeal.Read
import proofs.«409411_j8753143349689_3_alg».proof.Proof.Spec
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx Cert.CosineSoftmax

/-! ## Index equations: the composed index maps of the layout stages, at an index given by its coordinates -/

/-- Entry `k` of the query row that the norm at `(b, d)` sums over. -/
private theorem idx_query_norm (b : Fin 262144) (d k : Fin 256) :
    Read.idx_main_v1 (Read.idx_main_v2 (Read.idx_main_v6 (ix2 b d))) k = ix2 b k :=
  funext fun a => Fin.ext (by match a with | ⟨0, _⟩ => rfl | ⟨1, _⟩ => rfl)

/-- Entry `k` of the codebook row that the norm at `(n, d)` sums over. -/
private theorem idx_bank_norm (n : Fin 512) (d k : Fin 256) :
    Read.idx_main_v9 (Read.idx_main_v10 (Read.idx_main_v14 (ix2 n d))) k = ix2 n k :=
  funext fun a => Fin.ext (by match a with | ⟨0, _⟩ => rfl | ⟨1, _⟩ => rfl)

/-- The first contraction reads the query row `b` … -/
private theorem lidx_sim (b : Fin 262144) (n : Fin 512) (k : Fin 256) : Read.lidx_main_v16 (ix2 b n) k = ix2 b k :=
  funext fun a => Fin.ext (by match a with | ⟨0, _⟩ => rfl | ⟨1, _⟩ => rfl)

/-- … against the codebook row `n`. -/
private theorem ridx_sim (b : Fin 262144) (n : Fin 512) (k : Fin 256) : Read.ridx_main_v16 (ix2 b n) k = ix2 n k :=
  funext fun a => Fin.ext (by match a with | ⟨0, _⟩ => rfl | ⟨1, _⟩ => rfl)

/-- The row maximum subtracted at `(b, n)` is the one of row `b`. -/
private theorem idx_shift (b : Fin 262144) (n : Fin 512) : Read.idx_main_v20 (Read.idx_main_v21 (ix2 b n)) = ix1 b :=
  funext fun a => Fin.ext (by match a with | ⟨0, _⟩ => rfl)

/-- The mass of row `b` sums the exponentials at `(b, k)`. -/
private theorem idx_mass (b : Fin 262144) (k : Fin 512) : Read.idx_main_v24 (ix1 b) k = ix2 b k :=
  funext fun a => Fin.ext (by match a with | ⟨0, _⟩ => rfl | ⟨1, _⟩ => rfl)

/-- The mass divided by at `(b, n)` is the one of row `b`. -/
private theorem idx_quot (b : Fin 262144) (n : Fin 512) : Read.idx_main_v25 (Read.idx_main_v26 (ix2 b n)) = ix1 b :=
  funext fun a => Fin.ext (by match a with | ⟨0, _⟩ => rfl)

/-- The second contraction reads the weights of row `b` … -/
private theorem lidx_mix (b : Fin 262144) (d : Fin 256) (k : Fin 512) : Read.lidx_main_v28 (ix2 b d) k = ix2 b k :=
  funext fun a => Fin.ext (by match a with | ⟨0, _⟩ => rfl | ⟨1, _⟩ => rfl)

/-- … against column `d` of the codebook. -/
private theorem ridx_mix (b : Fin 262144) (d : Fin 256) (k : Fin 512) : Read.ridx_main_v28 (ix2 b d) k = ix2 k d :=
  funext fun a => Fin.ext (by match a with | ⟨0, _⟩ => rfl | ⟨1, _⟩ => rfl)

/-- Column `n` inserted into the row index `b` of the similarities is the index `(b, n)`. -/
private theorem lift_row (h : S262144x512.Reduces [1] S262144) (b : Fin 262144) (n : Fin 512) :
    h.lift (ix1 b) n = ix2 b n :=
  funext fun a => Fin.ext (by match a with | ⟨0, _⟩ => rfl | ⟨1, _⟩ => rfl)

/-! ## The stages -/

/-- The query row `b`, scaled to unit length by division. -/
theorem query_unit_apply (x0 : (⟨S262144x256, .f32⟩ : BufTy).Contents (Elt Ideal)) (b : Fin 262144) (d : Fin 256) :
    Read.val_main_v7 (F := Ideal) x0 (ix2 b d) = unitDiv (fun d : Fin 256 => x0 (ix2 b d)) d := by
  rw [Read.val_main_v7_apply, Read.val_main_v6_apply, Read.val_main_v5_apply, Read.val_main_v3_apply,
    Read.val_main_v2_apply, Read.val_main_v1_apply, Read.val_main_v4_apply, Read.val_main_cst_0_apply,
    Read.val_main_cst_apply]
  simp only [Read.val_main_v0_apply, idx_query_norm, Ideal.hostDivf_def, Ideal.hostUnary_sqrt_def, Ideal.maximumf_def,
    Ideal.mulf_def, Ideal.ofBits_def, Ideal.ofBits_zero_f32, zero_add]
  rfl

/-- The codebook row `n`, scaled to unit length by division. -/
theorem bank_unit_apply (x1 : (⟨S512x256, .f32⟩ : BufTy).Contents (Elt Ideal)) (n : Fin 512) (d : Fin 256) :
    Read.val_main_v15 (F := Ideal) x1 (ix2 n d) = unitDiv (fun d : Fin 256 => x1 (ix2 n d)) d := by
  rw [Read.val_main_v15_apply, Read.val_main_v14_apply, Read.val_main_v13_apply, Read.val_main_v11_apply,
    Read.val_main_v10_apply, Read.val_main_v9_apply, Read.val_main_v12_apply, Read.val_main_cst_2_apply,
    Read.val_main_cst_1_apply]
  simp only [Read.val_main_v8_apply, idx_bank_norm, Ideal.hostDivf_def, Ideal.hostUnary_sqrt_def, Ideal.maximumf_def,
    Ideal.mulf_def, Ideal.ofBits_def, Ideal.ofBits_zero_f32, zero_add]
  rfl

/-- The cosine similarity of query row `b` and codebook row `n`. -/
theorem sim_apply (x0 : (⟨S262144x256, .f32⟩ : BufTy).Contents (Elt Ideal)) (x1 : (⟨S512x256, .f32⟩ : BufTy).Contents (Elt Ideal)) (b : Fin 262144) (n : Fin 512) :
    Read.val_main_v16 (F := Ideal) x0 x1 (ix2 b n)
      = (simDiv (fun d : Fin 256 => x0 (ix2 b d)) (fun (k : Fin 512) (d : Fin 256) => x1 (ix2 k d))) n := by
  rw [Read.val_main_v16_apply]
  simp only [lidx_sim, ridx_sim, query_unit_apply, bank_unit_apply]
  rfl

/-- Folding `max` from a value and then taking `max` with that value once more changes nothing. -/
private theorem max_fold_max_self {ι : Type} (s : Finset ι) (c : EReal) (f : ι → EReal) :
    max c (s.fold max c f) = s.fold max c f :=
  max_eq_right ((Finset.le_fold_max c).mpr (Or.inl le_rfl))

/-- Dropping the column axis of the similarities leaves the row axis. -/
private theorem reduces_row : S262144x512.Reduces [1] S262144 := by decide

/-- The reference's first fold: `max` from minus infinity over row `b` of the similarities. -/
private theorem rowfold_apply (x0 : (⟨S262144x256, .f32⟩ : BufTy).Contents (Elt Ideal)) (x1 : (⟨S512x256, .f32⟩ : BufTy).Contents (Elt Ideal)) (b : Fin 262144) :
    Read.val_main_v17 (F := Ideal) x0 x1 (ix1 b)
      = (Finset.univ : Finset (Fin 512)).fold max negInf (simDiv (fun d : Fin 256 => x0 (ix2 b d)) (fun (k : Fin 512) (d : Fin 256) => x1 (ix2 k d))) := by
  unfold Read.val_main_v17
  refine (Host.reduce_eq_fold_single FloatOps.maximumf _ _ reducesTo_S262144x512_S262144_d1 reduces_row h_S_ (ix1 b)).trans ?_
  have hrow : (Read.val_main_v16 (F := Ideal) x0 x1 ∘ reduces_row.lift (ix1 b))
      = (simDiv (fun d : Fin 256 => x0 (ix2 b d)) (fun (k : Fin 512) (d : Fin 256) => x1 (ix2 k d))) :=
    funext fun n => (congrArg (Read.val_main_v16 (F := Ideal) x0 x1) (lift_row _ b n)).trans (sim_apply x0 x1 b n)
  rw [hrow]
  rfl

/-- The maximum of row `b` of the similarities: the reference folds `max` from minus infinity over the row and then takes
    the maximum with minus infinity again. -/
theorem rowmax_apply (x0 : (⟨S262144x256, .f32⟩ : BufTy).Contents (Elt Ideal)) (x1 : (⟨S512x256, .f32⟩ : BufTy).Contents (Elt Ideal)) (b : Fin 262144) :
    Read.val_main_v19 (F := Ideal) x0 x1 (ix1 b)
      = rowMax (simDiv (fun d : Fin 256 => x0 (ix2 b d)) (fun (k : Fin 512) (d : Fin 256) => x1 (ix2 k d))) := by
  rw [Read.val_main_v19_apply, Read.val_main_v18_apply, Read.val_main_cst_4_apply, rowfold_apply]
  exact max_fold_max_self _ _ _

/-- The exponential of the similarity at `(b, n)` shifted by the maximum of row `b`. -/
theorem exp_apply (x0 : (⟨S262144x256, .f32⟩ : BufTy).Contents (Elt Ideal)) (x1 : (⟨S512x256, .f32⟩ : BufTy).Contents (Elt Ideal)) (b : Fin 262144) (n : Fin 512) :
    Read.val_main_v23 (F := Ideal) x0 x1 (ix2 b n)
      = expShift (simDiv (fun d : Fin 256 => x0 (ix2 b d)) (fun (k : Fin 512) (d : Fin 256) => x1 (ix2 k d))) n := by
  rw [Read.val_main_v23_apply, Read.val_main_v22_apply, Read.val_main_v21_apply, Read.val_main_v20_apply, idx_shift,
    rowmax_apply, sim_apply]
  rfl

/-- The softmax mass of row `b`. -/
theorem mass_apply (x0 : (⟨S262144x256, .f32⟩ : BufTy).Contents (Elt Ideal)) (x1 : (⟨S512x256, .f32⟩ : BufTy).Contents (Elt Ideal)) (b : Fin 262144) :
    Read.val_main_v24 (F := Ideal) x0 x1 (ix1 b)
      = mass (simDiv (fun d : Fin 256 => x0 (ix2 b d)) (fun (k : Fin 512) (d : Fin 256) => x1 (ix2 k d))) := by
  rw [Read.val_main_v24_apply, Read.val_main_cst_5_apply]
  simp only [idx_mass, exp_apply, Ideal.ofBits_def, Ideal.ofBits_zero_f32, zero_add]
  rfl

/-- The reference's softmax output at (b, n). -/
theorem weights_apply (x0 : (⟨S262144x256, .f32⟩ : BufTy).Contents (Elt Ideal)) (x1 : (⟨S512x256, .f32⟩ : BufTy).Contents (Elt Ideal))
    (b : Fin 262144) (n : Fin 512) :
    Cert.ReferenceIdeal.Read.val_main_v27 (F := Ideal) x0 x1 (ix2 b n)
      = softDiv (simDiv (fun d : Fin 256 => x0 (ix2 b d)) (fun (k : Fin 512) (d : Fin 256) => x1 (ix2 k d))) n := by
  rw [Read.val_main_v27_apply, Read.val_main_v26_apply, Read.val_main_v25_apply, idx_quot, mass_apply, exp_apply]
  rfl

/-- The reference's mixture output at (b, d). -/
theorem mixture_apply (x0 : (⟨S262144x256, .f32⟩ : BufTy).Contents (Elt Ideal)) (x1 : (⟨S512x256, .f32⟩ : BufTy).Contents (Elt Ideal))
    (b : Fin 262144) (d : Fin 256) :
    Cert.ReferenceIdeal.Read.val_main_v28 (F := Ideal) x0 x1 (ix2 b d)
      = mixDiv (simDiv (fun d : Fin 256 => x0 (ix2 b d)) (fun (k : Fin 512) (d : Fin 256) => x1 (ix2 k d)))
          (fun (k : Fin 512) (d : Fin 256) => x1 (ix2 k d)) d := by
  rw [Read.val_main_v28_apply]
  simp only [lidx_mix, ridx_mix, weights_apply]
  rfl

end Cert.ReferenceIdeal.RefValue

end
-- ==== Proof.HostBank.lean ====
/-
  The two arrays the host prepares for the kernel: the codebook with rows scaled to unit length, transposed; and the codebook itself.

  The host squares the codebook entrywise, sums each row, takes the square root, clamps it below by the small positive
  constant, divides each entry by its row's clamped norm, and transposes the quotient; the changes of number format on
  the way are the identity on the extended reals.  Read at one index, that chain is the specification's `unitDiv`.
-/
import proofs.«409411_j8753143349689_3_alg».proof.Proof.Gen.KernelIdeal.Frame
import proofs.«409411_j8753143349689_3_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.HostValue

open Cert.KernelIdeal Cert.KernelIdeal.Gen Idealize.ShloMosaic Idealize.ShloMosaic.TcCoe Idealize.SL.Sem Idealize.ShloMosaic.ValueIdx Cert.CosineSoftmax

/-- The codebook with each row divided by its clamped Euclidean norm, as the host's operations spell it. -/
def unitRows (x : (⟨S512x256, .f32⟩ : BufTy).Contents (Elt Ideal)) : (⟨S512x256, .f32⟩ : BufTy).Contents (Elt Ideal) :=
  Host.divf (F := Ideal) x
    (broadcastInDim S512x256 ![0, 1] bcast_S512x1_S512x256_0_1
      (maximumf (F := Ideal)
        (Host.sqrt (F := Ideal)
          (broadcastInDim S512x1 ![0] bcast_S512_S512x1_0
            (Host.reduceAdd (F := Ideal) (mulf (F := Ideal) x x) (constant (F := Ideal) S_ .f32 0x00000000#32)
              reducesTo_S512x256_S512_d1 h_S_)))
        (broadcastInDim S512x1 ![] bcast_S_S512x1 (constant (F := Ideal) S_ .f32 0x2B8CBCCC#32))))

/-- The host's division and square root, read at an index on the extended reals. -/
theorem hostDivf_apply {s : Shape} {φ : FTy} (a b : FVec Ideal s φ) (i : s.Idx) :
    Host.divf a b i = Ideal.div (a i) (b i) := rfl
theorem hostSqrt_apply {s : Shape} {φ : FTy} (a : FVec Ideal s φ) (i : s.Idx) :
    Host.sqrt a i = Ideal.sqrt (a i) := rfl

/-- The host's sum over a row: entry n of the reduced array is the sum of the squares of codebook row n. -/
theorem rowSumSq_apply (x : (⟨S512x256, .f32⟩ : BufTy).Contents (Elt Ideal)) (n : Fin 512) :
    Host.reduceAdd (F := Ideal) (mulf (F := Ideal) x x) (constant (F := Ideal) S_ .f32 0x00000000#32)
        reducesTo_S512x256_S512_d1 h_S_ (ix1 n)
      = ∑ d' : Fin 256, x (ix2 n d') * x (ix2 n d') := by
  simp only [Host.reduceAdd, Ideal.hostReduceAdd_def]
  rw [Ideal.hostReduceAdd_single reducesTo_S512x256_S512_d1 (by decide), constant_apply, Ideal.ofBits_zero_f32, zero_add]
  refine Finset.sum_congr rfl fun k _ => ?_
  rw [mulf_apply]
  refine congrArg (fun i => x i * x i) (funext fun a => Fin.ext ?_)
  match a with
  | ⟨0, _⟩ => rfl
  | ⟨1, _⟩ => rfl

/-- Entry (n, d) of the scaled codebook: entry d of row n divided by the clamped norm of row n. -/
theorem unitRows_apply (x : (⟨S512x256, .f32⟩ : BufTy).Contents (Elt Ideal)) (n : Fin 512) (d : Fin 256) :
    unitRows x (ix2 n d) = unitDiv (fun d' : Fin 256 => x (ix2 n d')) d := by
  unfold unitRows unitDiv nrm
  rw [hostDivf_apply,
    broadcastInDim_apply _ bcast_S512x1_S512x256_0_1 _ (ix2 n d) (ix2 n (0 : Fin 1)) (fun a => match a with
      | ⟨0, _⟩ => by show n.val = if (512 : Nat) = 1 then 0 else n.val; rw [if_neg (by decide)]
      | ⟨1, _⟩ => by show 0 = if (1 : Nat) = 1 then 0 else d.val; rw [if_pos rfl]),
    maximumf_apply, hostSqrt_apply,
    broadcastInDim_apply _ bcast_S512_S512x1_0 _ (ix2 n (0 : Fin 1)) (ix1 n) (fun a => match a with
      | ⟨0, _⟩ => by show n.val = if (512 : Nat) = 1 then 0 else n.val; rw [if_neg (by decide)]),
    broadcastInDim_apply _ bcast_S_S512x1 _ (ix2 n (0 : Fin 1)) ix0 (fun a => a.elim0),
    rowSumSq_apply, constant_apply]
  rfl

variable (m : (ℓ : Loc nD τ sig) → Buf (Elt Ideal) ℓ)

/-- The first prepared array is the scaled codebook, changed in format and transposed. -/
theorem bankT_eq (c : Dev nD) :
    (V m c main_v9 : S256x512.Idx → EReal)
      = (transpose S256x512 [1, 0] (truncf (F := Ideal) .bf16 (unitRows (m ((c : Thread nD τ).loc main_arg1))) bitsLt_bf16_f32)
          transposes_S512x256_S256x512_1_0 : S256x512.Idx → EReal) := by
  dsimp only [Gen.V, Gen.hostOps0]
  after_results
  rfl

/-- The second prepared array is the codebook changed in format. -/
theorem embCast_eq (c : Dev nD) :
    (V m c main_v10 : S512x256.Idx → EReal)
      = (truncf (F := Ideal) .bf16 (m ((c : Thread nD τ).loc main_arg1)) bitsLt_bf16_f32 : S512x256.Idx → EReal) := by
  dsimp only [Gen.V, Gen.hostOps0]
  after_results

/-- Entry (d, n) of the transposed scaled codebook is entry d of codebook row n divided by that row's clamped norm. -/
theorem bankT_apply (c : Dev nD) (d : Fin 256) (n : Fin 512) :
    (V m c main_v9 : S256x512.Idx → EReal) (ix2 d n)
      = unitDiv (fun d' : Fin 256 => (m ((c : Thread nD τ).loc main_arg1) : S512x256.Idx → EReal) (ix2 n d')) d := by
  refine (congrFun (bankT_eq m c) (ix2 d n)).trans ?_
  rw [transpose_ix2_apply, truncf_apply, unitRows_apply]

/-- The second prepared array is the codebook unchanged (a change of format is the identity). -/
theorem embCast_apply (c : Dev nD) (n : Fin 512) (d : Fin 256) :
    (V m c main_v10 : S512x256.Idx → EReal) (ix2 n d)
      = (m ((c : Thread nD τ).loc main_arg1) : S512x256.Idx → EReal) (ix2 n d) := by
  refine (congrFun (embCast_eq m c) (ix2 n d)).trans ?_
  rw [truncf_apply]

end Cert.KernelIdeal.HostValue

end
-- ==== Proof.PayloadExp.lean ====
/-
  Inside the kernel body for one block of 2048 query rows: the shifted exponentials of the similarities, and the
  reciprocal of their row sums, read at an index.
-/
import proofs.«409411_j8753143349689_3_alg».proof.Proof.Gen.KernelIdeal.Skeleton
import proofs.«409411_j8753143349689_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.CosineSoftmax

/-- The similarities of row `r` of a block of queries `x0` against the columns of the transposed scaled codebook `x1`. -/
def blockSim (x0 : Vec Ideal S2048x256 .f32) (x1 : Vec Ideal S256x512 .bf16) (r : Fin 2048) : Fin 512 → EReal :=
  dots (unitMul (fun d : Fin 256 => x0 (ix2 r d))) (fun (n : Fin 512) (d : Fin 256) => x1 (ix2 d n))

/-! ## Two layout forms: a vector as a column, and a column spread over the columns -/

/-- A vector of length `a` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## The lane reductions of a block, read at a row -/

/-- The lane sum of a `[2048, 256]` block at row `r` is the sum of that row. -/
theorem laneSum256 (src : FVec Ideal S2048x256 .f32) (r : Fin 2048) :
    (multiReduction (F := Ideal) .add [1] S2048 src 0x00000000#32 reduces_S2048x256_S2048 (.inl rfl) rfl) (ix1 r)
      = ∑ d : Fin 256, src (ix2 r d) := by
  refine (Ideal.multiReduction_add_single src _ reduces_S2048x256_S2048 (.inl rfl) rfl (ix1 r)).trans ?_
  refine Finset.sum_congr rfl fun d _ => congrArg src ?_
  funext a; apply Fin.ext
  match a with
  | ⟨0, _⟩ => rfl
  | ⟨1, _⟩ => rfl

/-- The lane sum of a `[2048, 512]` block at row `r` is the sum of that row. -/
theorem laneSum512 (src : FVec Ideal S2048x512 .f32) (r : Fin 2048) :
    (multiReduction (F := Ideal) .add [1] S2048 src 0x00000000#32 reduces_S2048x512_S2048 (.inl rfl) rfl) (ix1 r)
      = ∑ n : Fin 512, src (ix2 r n) := by
  refine (Ideal.multiReduction_add_single src _ reduces_S2048x512_S2048 (.inl rfl) rfl (ix1 r)).trans ?_
  refine Finset.sum_congr rfl fun n _ => congrArg src ?_
  funext a; apply Fin.ext
  match a with
  | ⟨0, _⟩ => rfl
  | ⟨1, _⟩ => rfl

/-- The lane maximum of a `[2048, 512]` block at row `r` is the fold of `max` over that row, from minus infinity. -/
theorem laneMax512 (src : FVec Ideal S2048x512 .f32) (r : Fin 2048) :
    (multiReduction (F := Ideal) .maximumf [1] S2048 src 0xFF800000#32 reduces_S2048x512_S2048 (.inl rfl) rfl) (ix1 r)
      = rowMax (fun n : Fin 512 => src (ix2 r n)) := by
  refine (Ideal.multiReduction_maximumf_single src _ reduces_S2048x512_S2048 (.inl rfl) rfl (ix1 r)).trans ?_
  unfold rowMax negInf
  refine congrArg (fun f => (Finset.univ : Finset (Fin 512)).fold max (Ideal.ofBits .f32 0xFF800000#32) f) ?_
  funext n
  refine congrArg src ?_
  funext a; apply Fin.ext
  match a with
  | ⟨0, _⟩ => rfl
  | ⟨1, _⟩ => rfl

/-! ## The product of a `[2048, 256]` block with a `[256, 512]` one, read at an entry -/

/-- The left operand's row is the output's row. -/
theorem lhs_sim_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
/-- The left operand's column is the contracted coordinate. -/
theorem lhs_sim_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
/-- The right operand's row is the contracted coordinate. -/
theorem rhs_sim_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
/-- The right operand's column is the output's column. -/
theorem rhs_sim_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- Into a zero accumulator, the product at `(r, n)` is the sum over `k` of the left block at `(r, k)` times the right at `(k, n)`. -/
theorem matmulSim_apply (lhs : FVec Ideal S2048x256 .bf16) (rhs : FVec Ideal S256x512 .bf16) (r : Fin 2048) (n : Fin 512) :
    (matmul (F := Ideal) dot_S2048x256_S256x512_S2048x512_1_0_0_1_n_n none lhs rhs (constant (F := Ideal) S2048x512 .f32 0x00000000#32)) (ix2 r n)
      = ∑ k : Fin 256, lhs (ix2 r k) * rhs (ix2 k n) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 r n) ((contrEquiv1 dot_S2048x256_S256x512_S2048x512_1_0_0_1_n_n 256 rfl rfl).symm k) = ix2 r k := funext fun a => Fin.ext (by
    match a with
    | ⟨0, _⟩ => exact lhs_sim_0 _ _
    | ⟨1, _⟩ => exact (lhs_sim_1 _ _).trans hk)
  have er : dot_S2048x256_S256x512_S2048x512_1_0_0_1_n_n.rhsIdx (ix2 r n) ((contrEquiv1 dot_S2048x256_S256x512_S2048x512_1_0_0_1_n_n 256 rfl rfl).symm k) = ix2 k n := funext fun a => Fin.ext (by
    match a with
    | ⟨0, _⟩ => exact (rhs_sim_0 _ _).trans hk
    | ⟨1, _⟩ => exact rhs_sim_1 _ _)
  rw [el, er]

/-! ## The body's values, stage by stage -/

/-- The reciprocal of the clamped norm of every row of a block, as a column. -/
def rnormCol (x0 : FVec Ideal S2048x256 .f32) : FVec Ideal S2048x1 .f32 :=
  divf (broadcast S2048x1 (Scalar.ofBits .f32 0x3F800000#32))
    (maximumf
      (sqrt (shapeCast S2048x1 (multiReduction .add [1] S2048 (mulf x0 x0) 0x00000000#32 reduces_S2048x256_S2048 (.inl rfl) rfl) shapeCasts_S2048_S2048x1))
      (broadcast S2048x1 (Scalar.ofBits .f32 0x2B8CBCCC#32)))

/-- At row `r` the column holds one over the clamped norm of row `r`. -/
theorem rnormCol_apply (x0 : FVec Ideal S2048x256 .f32) (r : Fin 2048) :
    rnormCol x0 (ix2 r (0 : Fin 1)) = Ideal.div one (nrm (fun d : Fin 256 => x0 (ix2 r d))) := by
  unfold rnormCol
  rw [divf_apply, maximumf_apply, broadcast_apply, broadcast_apply]
  show Ideal.div one (max (Ideal.sqrt ((shapeCast S2048x1 (multiReduction (F := Ideal) .add [1] S2048 (mulf x0 x0) 0x00000000#32 reduces_S2048x256_S2048 (.inl rfl) rfl) shapeCasts_S2048_S2048x1) (ix2 r (0 : Fin 1)))) eps) = _
  rw [shapeCast_a_a1_apply, laneSum256]
  rfl

/-- The similarities of a block of queries against the columns of the transposed scaled codebook. -/
def simBlock (x0 : FVec Ideal S2048x256 .f32) (x1 : FVec Ideal S256x512 .bf16) : FVec Ideal S2048x512 .f32 :=
  matmul dot_S2048x256_S256x512_S2048x512_1_0_0_1_n_n none
    (truncf .bf16 (mulf x0 (broadcastTo S2048x256 (rnormCol x0) broadcasts_S2048x1_S2048x256)) bitsLt_bf16_f32)
    (shapeCast S256x512 x1 shapeCasts_S256x512_S256x512)
    (constant S2048x512 .f32 0x00000000#32)

/-- At `(r, n)` it is the inner product of the scaled row `r` with column `n`. -/
theorem simBlock_apply (x0 : FVec Ideal S2048x256 .f32) (x1 : FVec Ideal S256x512 .bf16) (r : Fin 2048) (n : Fin 512) :
    simBlock x0 x1 (ix2 r n) = blockSim x0 x1 r n := by
  unfold simBlock
  refine (matmulSim_apply _ _ r n).trans ?_
  unfold blockSim dots unitMul
  refine Finset.sum_congr rfl fun k _ => ?_
  rw [truncf_apply, mulf_apply, broadcastTo_a1_ab_apply, rnormCol_apply, shapeCast_self]

/-- The body's first value is the exponential of the similarities shifted by their row maximum. -/
theorem pay1_eq (x0 : FVec Ideal S2048x256 .f32) (x1 : FVec Ideal S256x512 .bf16) :
    k0_pay1 (F := Ideal) x0 x1
      = exp (subf (simBlock x0 x1)
          (broadcastTo S2048x512
            (shapeCast S2048x1 (multiReduction .maximumf [1] S2048 (simBlock x0 x1) 0xFF800000#32 reduces_S2048x512_S2048 (.inl rfl) rfl) shapeCasts_S2048_S2048x1)
            broadcasts_S2048x1_S2048x512)) := rfl

/-- The shifted exponential of the similarity at (r, n). -/
theorem pay1_apply (x0 : Vec Ideal S2048x256 .f32) (x1 : Vec Ideal S256x512 .bf16) (r : Fin 2048) (n : Fin 512) :
    (k0_pay1 (F := Ideal) x0 x1) (ix2 r n) = expShift (blockSim x0 x1 r) n := by
  rw [pay1_eq]
  show Ideal.exp (simBlock x0 x1 (ix2 r n) - (broadcastTo S2048x512
            (shapeCast S2048x1 (multiReduction (F := Ideal) .maximumf [1] S2048 (simBlock x0 x1) 0xFF800000#32 reduces_S2048x512_S2048 (.inl rfl) rfl) shapeCasts_S2048_S2048x1)
            broadcasts_S2048x1_S2048x512) (ix2 r n)) = _
  rw [broadcastTo_a1_ab_apply, shapeCast_a_a1_apply, laneMax512]
  have hrow : (fun n : Fin 512 => simBlock x0 x1 (ix2 r n)) = blockSim x0 x1 r := funext (simBlock_apply x0 x1 r)
  rw [hrow, simBlock_apply]
  rfl

/-- The reciprocal of the softmax mass of row r (a column vector: its second coordinate is 0). -/
theorem pay2_apply (x0 : Vec Ideal S2048x256 .f32) (x1 : Vec Ideal S256x512 .bf16) (r : Fin 2048) :
    (k0_pay2 (F := Ideal) x0 x1) (ix2 r (0 : Fin 1)) = Ideal.div one (mass (blockSim x0 x1 r)) := by
  unfold k0_pay2
  show Ideal.div one ((shapeCast S2048x1 (multiReduction (F := Ideal) .add [1] S2048 (k0_pay1 (F := Ideal) x0 x1) 0x00000000#32 reduces_S2048x512_S2048 (.inl rfl) rfl) shapeCasts_S2048_S2048x1) (ix2 r (0 : Fin 1))) = _
  rw [shapeCast_a_a1_apply, laneSum512]
  unfold mass
  exact congrArg (Ideal.div one) (Finset.sum_congr rfl fun n _ => pay1_apply x0 x1 r n)

end Cert.KernelIdeal.BlockValue

end
-- ==== Proof.Payload.lean ====
/-
  What the kernel body stores for one block of 2048 query rows, read at an index.

  The body holds two values from the earlier stage: the shifted exponentials of the block's similarities (a 2048 x 512
  array) and, per query row, the reciprocal of the row's softmax mass (a 2048 x 1 column).  It stores the product of
  the first with the column spread over the 512 columns -- the softmax weights in their "times the reciprocal"
  spelling -- and the matrix product of the first with the 512 codebook rows, again times the spread column: the
  weighted sum of the codebook rows, the whole sum then scaled by the reciprocal of the mass.

  Three small facts carry the proof.  A column spread over columns reads, at (p, c), the column at p.  A change of
  number format and a re-shaping to the same shape are the identity on extended reals.  A matrix product into a zero
  accumulator, contracting the second axis of the left factor with the first axis of the right one, is at (r, d) the
  sum over k of left (r, k) times right (k, d).
-/
import proofs.«409411_j8753143349689_3_alg».proof.Proof.PayloadExp

noncomputable section

open scoped BigOperators

namespace Cert.KernelIdeal.BlockValue

open Cert.KernelIdeal Cert.KernelIdeal.Gen Idealize.ShloMosaic Idealize.ShloMosaic.ValueIdx Cert.CosineSoftmax

namespace Stored

/-! ## A column spread over columns -/

/-- An `[a, 1]` column broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- the first axis has extent `a`: it is kept, unless `a = 1`, and then `p` is 0 anyway
    show p.val = if a = 1 then 0 else p.val
    split
    · have := p.isLt; omega
    · rfl
  | ⟨1, _⟩ => rfl  -- the second axis has extent 1: the column's only entry

/-! ## The second matrix product at an index

The contraction pairs axis 1 of the left factor with axis 0 of the right one; the output's axis 0 is the left
factor's axis 0 and its axis 1 the right factor's axis 1.  The four coordinate facts are stated one by one, each at a
literal axis, and the contraction's one-coordinate index set is identified with `Fin 512`. -/

theorem lhs_mix_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_mix_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_mix_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_mix_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The matrix product of a 2048 x 512 array with a 512 x 256 array into the zero accumulator is, at `(r, d)`, the sum
    over `k` of the left factor at `(r, k)` times the right factor at `(k, d)`. -/
theorem matmul_mix_apply (A : FVec Ideal S2048x512 .bf16) (B : FVec Ideal S512x256 .bf16) (r : Fin 2048) (d : Fin 256) :
    (matmul dot_S2048x512_S512x256_S2048x256_1_0_0_1_n_n none A B (constant (F := Ideal) S2048x256 .f32 0x00000000#32)) (ix2 r d)
      = ∑ k : Fin 512, A (ix2 r k) * B (ix2 k d) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 r d) ((contrEquiv1 dot_S2048x512_S512x256_S2048x256_1_0_0_1_n_n 512 rfl rfl).symm k) = ix2 r k := funext fun a => Fin.ext (by
    match a with
    | ⟨0, _⟩ => exact lhs_mix_0 _ _
    | ⟨1, _⟩ => exact (lhs_mix_1 _ _).trans hk)
  have er : dot_S2048x512_S512x256_S2048x256_1_0_0_1_n_n.rhsIdx (ix2 r d) ((contrEquiv1 dot_S2048x512_S512x256_S2048x256_1_0_0_1_n_n 512 rfl rfl).symm k) = ix2 k d := funext fun a => Fin.ext (by
    match a with
    | ⟨0, _⟩ => exact (rhs_mix_0 _ _).trans hk
    | ⟨1, _⟩ => exact rhs_mix_1 _ _)
  rw [el, er]

/-- The reciprocal of the mass of row `r`, spread over `b` columns, read at `(r, c)`. -/
theorem recip_spread_apply {b : ℕ} (x0 : Vec Ideal S2048x256 .f32) (x1 : Vec Ideal S256x512 .bf16)
    (h : S2048x1.Broadcasts ⟨2, ![2048, b]⟩) (r : Fin 2048) (c : Fin b) :
    (broadcastTo ⟨2, ![2048, b]⟩ (k0_pay2 (F := Ideal) x0 x1) h) (ix2 r c) = Ideal.div one (mass (blockSim x0 x1 r)) :=
  (broadcastTo_a1_ab_apply (k0_pay2 (F := Ideal) x0 x1) h r c).trans (pay2_apply x0 x1 r)

end Stored

/-! ## What the body stores -/

/-- The block of softmax weights the body stores, at (r, n). -/
theorem pay3_apply (x0 : Vec Ideal S2048x256 .f32) (x1 : Vec Ideal S256x512 .bf16) (r : Fin 2048) (n : Fin 512) :
    (k0_pay3 (F := Ideal) x0 x1) (ix2 r n) = softMul (blockSim x0 x1 r) n := by
  unfold k0_pay3 softMul
  show (k0_pay1 (F := Ideal) x0 x1) (ix2 r n)
      * (broadcastTo S2048x512 (k0_pay2 (F := Ideal) x0 x1) broadcasts_S2048x1_S2048x512) (ix2 r n)
    = expShift (blockSim x0 x1 r) n * Ideal.div one (mass (blockSim x0 x1 r))
  rw [pay1_apply x0 x1 r n, Stored.recip_spread_apply x0 x1 broadcasts_S2048x1_S2048x512 r n]

/-- The block of mixtures the body stores, at (r, d). -/
theorem pay4_apply (x0 : Vec Ideal S2048x256 .f32) (x1 : Vec Ideal S256x512 .bf16) (x2 : Vec Ideal S512x256 .bf16)
    (r : Fin 2048) (d : Fin 256) :
    (k0_pay4 (F := Ideal) x0 x1 x2) (ix2 r d)
      = mixMul (blockSim x0 x1 r) (fun (n : Fin 512) (d : Fin 256) => x2 (ix2 n d)) d := by
  unfold k0_pay4 mixMul
  show (matmul dot_S2048x512_S512x256_S2048x256_1_0_0_1_n_n none (truncf .bf16 (k0_pay1 (F := Ideal) x0 x1) bitsLt_bf16_f32)
          (shapeCast S512x256 x2 shapeCasts_S512x256_S512x256) (constant (F := Ideal) S2048x256 .f32 0x00000000#32)) (ix2 r d)
      * (broadcastTo S2048x256 (k0_pay2 (F := Ideal) x0 x1) broadcasts_S2048x1_S2048x256) (ix2 r d)
    = (∑ n : Fin 512, expShift (blockSim x0 x1 r) n * x2 (ix2 n d)) * Ideal.div one (mass (blockSim x0 x1 r))
  rw [Stored.matmul_mix_apply, Stored.recip_spread_apply x0 x1 broadcasts_S2048x1_S2048x256 r d, shapeCast_self]
  refine congrArg (· * Ideal.div one (mass (blockSim x0 x1 r))) (Finset.sum_congr rfl fun n _ => ?_)
  rw [truncf_apply, pay1_apply x0 x1 r n]

end Cert.KernelIdeal.BlockValue

end
-- ==== Proof.KernelValue.lean ====
/-
  The kernel's two result arrays after the run, each as ONE function of the argument arrays.

  The grid has 128 points; point t handles query rows 2048·t … 2048·t + 2047.  Its block of softmax weights and its
  block of mixtures depend only on those query rows and on the two prepared codebook arrays, which every point sees
  whole.  Row r of block t is row 2048·t + r of the result, and the 128 blocks tile each result array, so each array
  ends as the row-wise function below at every index.
-/
import proofs.«409411_j8753143349689_3_alg».proof.Proof.Gen.KernelIdeal.Value
import proofs.«409411_j8753143349689_3_alg».proof.Proof.HostBank
import proofs.«409411_j8753143349689_3_alg».proof.Proof.Payload
import Idealize.ShloMosaic.Lib.Pipeline.Value

noncomputable section

open scoped BigOperators

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Idealize.ShloMosaic.ValueIdx Cert.CosineSoftmax
open Cert.KernelIdeal.BlockValue Cert.KernelIdeal.HostValue

variable (m : (ℓ : Loc nD τ sig) → Buf (Elt Ideal) ℓ) (ρ : Dev nD → PrngReg)

/-- Row `b` of the query array. -/
def queryRow (c : Dev nD) (b : Fin 262144) : Fin 256 → EReal :=
  fun d => (m ((c : Thread nD τ).loc main_arg0) : S262144x256.Idx → EReal) (ix2 b d)

/-- The codebook, by rows. -/
def codebook (c : Dev nD) : Fin 512 → Fin 256 → EReal :=
  fun n d => (m ((c : Thread nD τ).loc main_arg1) : S512x256.Idx → EReal) (ix2 n d)

/-- The softmax weights of every query row, in the kernel's spelling. -/
def weightsArr (c : Dev nD) : S262144x512.Idx → EReal :=
  fun i => softMul (simMul (queryRow m c ⟨(i 0).val, idx2_lt0 i⟩) (codebook m c)) ⟨(i 1).val, idx2_lt1 i⟩

/-- The mixtures of the codebook rows for every query row, in the kernel's spelling. -/
def mixArr (c : Dev nD) : S262144x256.Idx → EReal :=
  fun i => mixMul (simMul (queryRow m c ⟨(i 0).val, idx2_lt0 i⟩) (codebook m c)) (codebook m c) ⟨(i 1).val, idx2_lt1 i⟩

theorem hz : (![0, 0] : Fin 2 → Nat) = fun _ => 0 := funext fun a => by fin_cases a <;> rfl

/-- The block index maps over the grid: the query window and both result windows move one block of rows per point;
    the two codebook windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The block of query rows point `t` sees. -/
abbrev queryBlk (c : Dev nD) (t : Fin cfg0.N) : Vec Ideal S2048x256 .f32 := iblk m c 0 t
/-- The transposed scaled codebook as point `t` sees it (whole). -/
abbrev bankBlk (c : Dev nD) (t : Fin cfg0.N) : Vec Ideal S256x512 .bf16 := iblk m c 1 t
/-- The codebook as point `t` sees it (whole). -/
abbrev embBlk (c : Dev nD) (t : Fin cfg0.N) : Vec Ideal S512x256 .bf16 := iblk m c 2 t

/-- Row r of point t's query block is row 2048·t + r of the query array. -/
theorem queryBlk_apply (c : Dev nD) (t : Fin cfg0.N) (r : Fin 2048) (d : Fin 256) (b : Fin 262144)
    (hb : b.val = 2048 * t.val + r.val) :
    queryBlk m c t (ix2 r d) = queryRow m c b d := by
  obtain ⟨e0, e1, -⟩ := idx_facts t
  unfold queryBlk iblk queryRow
  rw [View.read_apply]
  show V m c main_arg0 _ = _
  rw [V_main_arg0]
  congr 1
  funext a
  apply Fin.ext
  match a with
  | ⟨0, _⟩ => show win0_0.index t (0 : Fin 2) * 2048 + 1 * r.val = b.val; rw [e0, hb]; omega
  | ⟨1, _⟩ => show win0_0.index t (1 : Fin 2) * 256 + 1 * d.val = d.val; rw [e1]; omega

/-- Point t's view of the transposed scaled codebook at (d, n): entry d of codebook row n over that row's clamped norm. -/
theorem bankBlk_apply (c : Dev nD) (t : Fin cfg0.N) (d : Fin 256) (n : Fin 512) :
    bankBlk m c t (ix2 d n) = unitDiv (codebook m c n) d := by
  obtain ⟨-, -, e0, e1, -⟩ := idx_facts t
  unfold bankBlk iblk
  rw [View.read_apply]
  show (V m c main_v9 : S256x512.Idx → EReal) _ = _
  refine Eq.trans ?_ (bankT_apply m c d n)
  congr 1
  funext a
  apply Fin.ext
  match a with
  | ⟨0, _⟩ => show win0_1.index t (0 : Fin 2) * 256 + 1 * d.val = d.val; rw [e0]; omega
  | ⟨1, _⟩ => show win0_1.index t (1 : Fin 2) * 512 + 1 * n.val = n.val; rw [e1]; omega

/-- Point t's view of the codebook at (n, d). -/
theorem embBlk_apply (c : Dev nD) (t : Fin cfg0.N) (n : Fin 512) (d : Fin 256) :
    embBlk m c t (ix2 n d) = codebook m c n d := by
  obtain ⟨-, -, -, -, e0, e1, -⟩ := idx_facts t
  unfold embBlk iblk
  rw [View.read_apply]
  show (V m c main_v10 : S512x256.Idx → EReal) _ = _
  refine Eq.trans ?_ (embCast_apply m c n d)
  congr 1
  funext a
  apply Fin.ext
  match a with
  | ⟨0, _⟩ => show win0_2.index t (0 : Fin 2) * 512 + 1 * n.val = n.val; rw [e0]; omega
  | ⟨1, _⟩ => show win0_2.index t (1 : Fin 2) * 256 + 1 * d.val = d.val; rw [e1]; omega

/-- The similarities of row r of block t are those of query row 2048·t + r. -/
theorem blockSim_eq (c : Dev nD) (t : Fin cfg0.N) (r : Fin 2048) (b : Fin 262144) (hb : b.val = 2048 * t.val + r.val) :
    blockSim (queryBlk m c t) (bankBlk m c t) r = simMul (queryRow m c b) (codebook m c) := by
  unfold blockSim simMul
  have hq : (fun d : Fin 256 => queryBlk m c t (ix2 r d)) = queryRow m c b :=
    funext fun d => queryBlk_apply m c t r d b hb
  have hbank : (fun (n : Fin 512) (d : Fin 256) => bankBlk m c t (ix2 d n)) = fun n => unitDiv (codebook m c n) :=
    funext fun n => funext fun d => bankBlk_apply m c t d n
  rw [hq, hbank]

/-- WHAT POINT t WRITES BACK to the weights array is block t of `weightsArr`. -/
theorem flushed4_eq (c : Dev nD) (t : Fin cfg0.N) :
    (dats m 0 c).flushed 4 t = ((cfg0.win 4).blk t).view.read (Elt Ideal) (weightsArr m c) := by
  obtain ⟨-, -, -, -, -, -, -, -, e0, e1⟩ := idx_facts t
  rw [Value.flushed4]
  unfold out0_4
  rw [View.canon_unit_zero hz]
  simp only [View.ld_unit_zero (S := S2048x256) hz, View.ld_unit_zero (S := S256x512) hz]
  funext j
  obtain ⟨r, n, rfl⟩ : ∃ (r : Fin 2048) (n : Fin 512), j = ix2 r n := ⟨j 0, j 1, eq_ix2 j⟩
  show (k0_pay3 (F := Ideal) (queryBlk m c t) (bankBlk m c t)) (ix2 r n)
    = weightsArr m c (((cfg0.win 4).blk t).view.emb (ix2 r n))
  refine (pay3_apply (queryBlk m c t) (bankBlk m c t) r n).trans ?_
  have hr : r.val < 2048 := r.isLt
  have ht : t.val < 128 := by have h := t.isLt; have hN : cfg0.N = 128 := N_0; omega
  generalize hi : (((cfg0.win 4).blk t).view.emb (ix2 r n) : S262144x512.Idx) = i
  have h0 : (i 0).val = 2048 * t.val + r.val := by
    rw [← hi]; show win0_4.index t (0 : Fin 2) * 2048 + 1 * r.val = _; rw [e0]; omega
  have h1 : (i 1).val = n.val := by
    rw [← hi]; show win0_4.index t (1 : Fin 2) * 512 + 1 * n.val = _; rw [e1]; omega
  unfold weightsArr
  rw [blockSim_eq m c t r ⟨(i 0).val, idx2_lt0 i⟩ h0]
  exact congrArg _ (Fin.ext h1.symm)

/-- WHAT POINT t WRITES BACK to the mixtures array is block t of `mixArr`. -/
theorem flushed3_eq (c : Dev nD) (t : Fin cfg0.N) :
    (dats m 0 c).flushed 3 t = ((cfg0.win 3).blk t).view.read (Elt Ideal) (mixArr m c) := by
  obtain ⟨-, -, -, -, -, -, e0, e1, -⟩ := idx_facts t
  rw [Value.flushed3]
  unfold out0_3
  rw [View.canon_unit_zero hz]
  simp only [View.ld_unit_zero (S := S2048x256) hz, View.ld_unit_zero (S := S256x512) hz, View.ld_unit_zero (S := S512x256) hz]
  funext j
  obtain ⟨r, d, rfl⟩ : ∃ (r : Fin 2048) (d : Fin 256), j = ix2 r d := ⟨j 0, j 1, eq_ix2 j⟩
  show (k0_pay4 (F := Ideal) (queryBlk m c t) (bankBlk m c t) (embBlk m c t)) (ix2 r d)
    = mixArr m c (((cfg0.win 3).blk t).view.emb (ix2 r d))
  refine (pay4_apply (queryBlk m c t) (bankBlk m c t) (embBlk m c t) r d).trans ?_
  have hr : r.val < 2048 := r.isLt
  have ht : t.val < 128 := by have h := t.isLt; have hN : cfg0.N = 128 := N_0; omega
  generalize hi : (((cfg0.win 3).blk t).view.emb (ix2 r d) : S262144x256.Idx) = i
  have h0 : (i 0).val = 2048 * t.val + r.val := by
    rw [← hi]; show win0_3.index t (0 : Fin 2) * 2048 + 1 * r.val = _; rw [e0]; omega
  have h1 : (i 1).val = d.val := by
    rw [← hi]; show win0_3.index t (1 : Fin 2) * 256 + 1 * d.val = _; rw [e1]; omega
  have hemb : (fun (n : Fin 512) (d : Fin 256) => embBlk m c t (ix2 n d)) = codebook m c :=
    funext fun n => funext fun d => embBlk_apply m c t n d
  unfold mixArr
  rw [blockSim_eq m c t r ⟨(i 0).val, idx2_lt0 i⟩ h0, hemb]
  exact congrArg _ (Fin.ext h1.symm)

/-- An index of the weights array is in point t's block iff each coordinate is in the block's range on its axis. -/
theorem mem_blk4 (t : Fin cfg0.N) (i : S262144x512.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v11_1).slice (win0_4.rect t)).set ↔ _
  rw [View.set_slice_whole, Rect.mem_set_unit]
  exact Iff.rfl

/-- An index of the mixtures array is in point t's block iff each coordinate is in the block's range on its axis. -/
theorem mem_blk3 (t : Fin cfg0.N) (i : S262144x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v11_0).slice (win0_3.rect t)).set ↔ _
  rw [View.set_slice_whole, Rect.mem_set_unit]
  exact Iff.rfl

/-- Every index of the weights array lies in the block of the point that handles its row: point ⌊row / 2048⌋. -/
theorem cover4 (i : S262144x512.Idx) :
    ∃ t : Fin cfg0.N, (cfg0.win 4).flush t = true ∧ i ∈ ((cfg0.win 4).blk t).view.set := by
  have hi0 : (i 0).val < 262144 := idx2_lt0 i
  have hi1 : (i 1).val < 512 := idx2_lt1 i
  let t : Fin cfg0.N := ⟨(i 0).val / 2048, by rw [show cfg0.N = 128 from N_0]; omega⟩
  obtain ⟨-, -, -, -, -, -, -, -, e0, e1⟩ := idx_facts t
  have ht : t.val = (i 0).val / 2048 := rfl
  refine ⟨t, flush0_4 t, ?_⟩
  rw [mem_blk4]
  intro a
  match a with
  | ⟨0, _⟩ => show win0_4.index t (0 : Fin 2) * 2048 ≤ (i 0).val ∧ (i 0).val < win0_4.index t (0 : Fin 2) * 2048 + 2048; rw [e0, ht]; omega
  | ⟨1, _⟩ => show win0_4.index t (1 : Fin 2) * 512 ≤ (i 1).val ∧ (i 1).val < win0_4.index t (1 : Fin 2) * 512 + 512; rw [e1]; omega

/-- Every index of the mixtures array lies in the block of the point that handles its row. -/
theorem cover3 (i : S262144x256.Idx) :
    ∃ t : Fin cfg0.N, (cfg0.win 3).flush t = true ∧ i ∈ ((cfg0.win 3).blk t).view.set := by
  have hi0 : (i 0).val < 262144 := idx2_lt0 i
  have hi1 : (i 1).val < 256 := idx2_lt1 i
  let t : Fin cfg0.N := ⟨(i 0).val / 2048, by rw [show cfg0.N = 128 from N_0]; omega⟩
  obtain ⟨-, -, -, -, -, -, e0, e1, -⟩ := idx_facts t
  have ht : t.val = (i 0).val / 2048 := rfl
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; rw [e0, ht]; omega
  | ⟨1, _⟩ => show win0_3.index t (1 : Fin 2) * 256 ≤ (i 1).val ∧ (i 1).val < win0_3.index t (1 : Fin 2) * 256 + 256; rw [e1]; omega

/-- The weights array after the run. -/
theorem final4 (c : Dev nD) : (dats m 0 c).arrAt 4 cfg0.N = weightsArr m c :=
  (dats m 0 c).arrAt_eq_of_cover 4 (weightsArr m c) (fun t _ => flushed4_eq m c t) cover4

/-- The mixtures array after the run. -/
theorem final3 (c : Dev nD) : (dats m 0 c).arrAt 3 cfg0.N = mixArr m c :=
  (dats m 0 c).arrAt_eq_of_cover 3 (mixArr m c) (fun t _ => flushed3_eq m c t) cover3

/-- The run, read: each result array at its row-wise function of the arguments, the arguments unchanged. -/
theorem run : θ_run defs (onTc (τ := τ) (main (F := Ideal))) ⟨m, fun _ => 0, ρ⟩ fun r => ∀ c : Dev nD,
      r.2.mem ((c : Thread nD τ).loc main_v11_0) = mixArr m c
      ∧ r.2.mem ((c : Thread nD τ).loc main_v11_1) = weightsArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final3 m c), (h c).2.1.trans (final4 m c), (h c).2.2.1, (h c).2.2.2⟩)
    (Value.run_blocks m ρ)

end Cert.KernelIdeal.ArrayValue

end
-- ==== Proof.lean ====
/-
  A query array (262144 rows of 256 entries) is compared with a codebook (512 rows of 256 entries): every query row
  and every codebook row is scaled to unit length (the Euclidean norm clamped below by a small positive constant),
  the cosine similarities go through a softmax over the 512 codebook rows, and the softmax weights mix the original
  codebook rows.  Both programs return the mixtures and the weights.

  The kernel works on blocks of 2048 query rows.  It scales by multiplying with reciprocals (of the clamped norm, of
  the softmax mass) and applies the reciprocal of the mass once to the whole weighted sum; the reference divides, and
  divides each weight before mixing.  On the extended reals these are the same function wherever every input entry is
  a real number, which is what the precondition says: each divisor is then a positive real, so dividing is
  multiplying by the reciprocal, and the terms of the weighted sum are reals, so the reciprocal of the mass moves
  across the sum.  A change of float format is the identity, and a matrix product or a sum is the same sum whatever
  its tiling or order.

  The parts: the row-wise specification and the algebra between its two spellings; the reference's two results read
  at an index; the two arrays the kernel's host code prepares; what the kernel body stores for a block, read at an
  index; the blocks assembled into the whole result arrays; finiteness read out of the precondition.  The two
  kernel frames are the generated ones, the reference's frame is its generated run with the results dropped, and
  there is no idealization step to account for.
-/
import proofs.«409411_j8753143349689_3_alg».proof.Defs
import proofs.«409411_j8753143349689_3_alg».proof.Proof.Gen.Kernel
import proofs.«409411_j8753143349689_3_alg».proof.Proof.Gen.Kernel.Skeleton
import proofs.«409411_j8753143349689_3_alg».proof.Proof.Gen.Kernel.Launch
import proofs.«409411_j8753143349689_3_alg».proof.Proof.Gen.Kernel.Points
import proofs.«409411_j8753143349689_3_alg».proof.Proof.Gen.Kernel.Frame
import proofs.«409411_j8753143349689_3_alg».proof.Proof.Gen.KernelIdeal
import proofs.«409411_j8753143349689_3_alg».proof.Proof.Gen.KernelIdeal.Skeleton
import proofs.«409411_j8753143349689_3_alg».proof.Proof.Gen.KernelIdeal.Launch
import proofs.«409411_j8753143349689_3_alg».proof.Proof.Gen.KernelIdeal.Points
import proofs.«409411_j8753143349689_3_alg».proof.Proof.Gen.KernelIdeal.Frame
import proofs.«409411_j8753143349689_3_alg».proof.Proof.Gen.KernelIdeal.Value
import proofs.«409411_j8753143349689_3_alg».proof.Proof.Gen.ReferenceIdeal
import proofs.«409411_j8753143349689_3_alg».proof.Proof.Gen.ReferenceIdeal.Run
import proofs.«409411_j8753143349689_3_alg».proof.Proof.Gen.ReferenceIdeal.Read
import proofs.«409411_j8753143349689_3_alg».proof.Proof.Gen.Pre_finite_inputs
import proofs.«409411_j8753143349689_3_alg».proof.Proof.Algebra
import proofs.«409411_j8753143349689_3_alg».proof.Proof.Finite
import proofs.«409411_j8753143349689_3_alg».proof.Proof.RefRead
import proofs.«409411_j8753143349689_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx Cert.CosineSoftmax

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the two arguments, both programs end with the same mixtures and the same softmax
    weights: the kernel's arrays are the row-wise functions in its own spelling, the reference's are the same
    functions in the dividing spelling, and on real inputs the two spellings agree. -/
theorem algebraic : Cert.algebraic_KernelIdeal_ReferenceIdeal := by
  intro m ρ m' ρ' hpre hagree
  refine ⟨fun c => Cert.KernelIdeal.ArrayValue.mixArr m c, fun c => Cert.KernelIdeal.ArrayValue.weightsArr m c,
    Cert.KernelIdeal.ArrayValue.run m ρ, ?_⟩
  refine (θ_run Cert.ReferenceIdeal.defs _ _).mono (fun _ h c => ?_) (Cert.ReferenceIdeal.Value.run (F := Ideal) m' ρ')
  obtain ⟨hq, he⟩ := Cert.FiniteInputs.real_of_pre m hpre c
  refine ⟨(h c).1.trans ?_, (h c).2.1.trans ?_, (h c).2.2.1, (h c).2.2.2⟩
  · rw [Cert.ReferenceIdeal.Read.val_main_v28_eq, (hagree c).1, (hagree c).2]
    funext i
    obtain ⟨b, d, rfl⟩ : ∃ (b : Fin 262144) (d : Fin 256), i = ix2 b d := ⟨i 0, i 1, eq_ix2 i⟩
    rw [Cert.ReferenceIdeal.RefValue.mixture_apply]
    exact (mixMul_simMul (by decide) _ _ (fun d => hq (ix2 b d)) (fun n d => he (ix2 n d)) d).symm
  · rw [Cert.ReferenceIdeal.Read.val_main_v27_eq, (hagree c).1, (hagree c).2]
    funext i
    obtain ⟨b, n, rfl⟩ : ∃ (b : Fin 262144) (n : Fin 512), i = ix2 b n := ⟨i 0, i 1, eq_ix2 i⟩
    rw [Cert.ReferenceIdeal.RefValue.weights_apply]
    exact (softMul_simMul (by decide) _ _ (fun d => hq (ix2 b d)) (fun n d => he (ix2 n d)) n).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
